-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S_ : Shape := ⟨0, ![]⟩

class Facts : Prop where
  bcast_S_S32x1024x3072 : S_.BroadcastsInDim S32x1024x3072 (![] : Fin 0 → Fin S32x1024x3072.rank)
  reducesTo_S32x1024x3072_S_d0_1_2 : S32x1024x3072.ReducesTo [0, 1, 2] S_
  h_S_ : 0 < S_.numel
  bcast_S_S32x3072x1024 : S_.BroadcastsInDim S32x3072x1024 (![] : Fin 0 → Fin S32x3072x1024.rank)
  reducesTo_S32x3072x1024_S_d0_1_2 : S32x3072x1024.ReducesTo [0, 1, 2] S_
  bcast_S_S32x1024x256 : S_.BroadcastsInDim S32x1024x256 (![] : Fin 0 → Fin S32x1024x256.rank)
  reducesTo_S32x1024x256_S_d0_1_2 : S32x1024x256.ReducesTo [0, 1, 2] S_

variable [Facts]

def fn {F : FTy → Type} [FloatOps F] (main_arg0 : FVec F S32x1024x3072 .f32) (main_arg1 : FVec F S32x3072x1024 .f32) (main_arg2 : FVec F S32x1024x256 .f32) : IVec S_ 1 :=
  let main_v0 : FVec F S32x1024x3072 .f32 := Host.absf main_arg0
  let main_cst : FVec F S_ .f32 := constant S_ .f32 0x7F800000#32
  let main_v1 : FVec F S32x1024x3072 .f32 := broadcastInDim S32x1024x3072 ![] bcast_S_S32x1024x3072 main_cst
  let main_v2 : IVec S32x1024x3072 1 := cmpf .olt main_v0 main_v1
  let main_c : IVec S_ 1 := constantI S_ 1 1#1
  let main_v3 : IVec S_ 1 := (fun x v => Host.reduce IntOp.andi x v reducesTo_S32x1024x3072_S_d0_1_2 h_S_) main_v2 main_c
  let main_v4 : FVec F S32x3072x1024 .f32 := Host.absf main_arg1
  let main_cst_0 : FVec F S_ .f32 := constant S_ .f32 0x7F800000#32
  let main_v5 : FVec F S32x3072x1024 .f32 := broadcastInDim S32x3072x1024 ![] bcast_S_S32x3072x1024 main_cst_0
  let main_v6 : IVec S32x3072x1024 1 := cmpf .olt main_v4 main_v5
  let main_c_1 : IVec S_ 1 := constantI S_ 1 1#1
  let main_v7 : IVec S_ 1 := (fun x v => Host.reduce IntOp.andi x v reducesTo_S32x3072x1024_S_d0_1_2 h_S_) main_v6 main_c_1
  let main_v8 : IVec S_ 1 := andi main_v3 main_v7
  let main_v9 : FVec F S32x1024x256 .f32 := Host.absf main_arg2
  let main_cst_2 : FVec F S_ .f32 := constant S_ .f32 0x7F800000#32
  let main_v10 : FVec F S32x1024x256 .f32 := broadcastInDim S32x1024x256 ![] bcast_S_S32x1024x256 main_cst_2
  let main_v11 : IVec S32x1024x256 1 := cmpf .olt main_v9 main_v10
  let main_c_3 : IVec S_ 1 := constantI S_ 1 1#1
  let main_v12 : IVec S_ 1 := (fun x v => Host.reduce IntOp.andi x v reducesTo_S32x1024x256_S_d0_1_2 h_S_) main_v11 main_c_3
  let main_v13 : IVec S_ 1 := andi main_v8 main_v12
  main_v13
-- ==== Kernel.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S1x256x3072 : Shape := ⟨3, ![1, 256, 3072]⟩
abbrev S1x3072x1024 : Shape := ⟨3, ![1, 3072, 1024]⟩
abbrev S1x1024x256 : Shape := ⟨3, ![1, 1024, 256]⟩
abbrev S1x256x256 : Shape := ⟨3, ![1, 256, 256]⟩
abbrev S256x3072 : Shape := ⟨2, ![256, 3072]⟩
abbrev S3072x1024 : Shape := ⟨2, ![3072, 1024]⟩
abbrev S256x1024 : Shape := ⟨2, ![256, 1024]⟩
abbrev S1024x256 : Shape := ⟨2, ![1024, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x1024x3072, .f32⟩
  | .hbm, ⟨1, _⟩ => ⟨S32x3072x1024, .f32⟩
  | .hbm, ⟨2, _⟩ => ⟨S32x1024x256, .f32⟩
  | .hbm, ⟨3, _⟩ => ⟨S32x1024x256, .f32⟩
  | .local _ .vmem, ⟨0, _⟩ => ⟨S1x256x3072, .f32⟩
  | .local _ .vmem, ⟨1, _⟩ => ⟨S1x256x3072, .f32⟩
  | .local _ .vmem, ⟨2, _⟩ => ⟨S1x3072x1024, .f32⟩
  | .local _ .vmem, ⟨3, _⟩ => ⟨S1x3072x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x256x256, .f32⟩
  | .local _ .vmem, ⟨7, _⟩ => ⟨S1x256x256, .f32⟩
  | _, _ => ⟨S32x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x3072_S1x256x3072_0_0_0 : ∀ a, (![0, 0, 0] : Fin 3 → Nat) a + S1x256x3072.size a ≤ S1x256x3072.size a
  h_S1x256x3072 : 0 < S1x256x3072.numel
  shapeCasts_S1x256x3072_S256x3072 : S1x256x3072.ShapeCasts S256x3072
  bitsLt_bf16_f32 : FTy.bits .bf16 < FTy.bits .f32
  inb_S1x3072x1024_S1x3072x1024_0_0_0 : ∀ a, (![0, 0, 0] : Fin 3 → Nat) a + S1x3072x1024.size a ≤ S1x3072x1024.size a
  h_S1x3072x1024 : 0 < S1x3072x1024.numel
  shapeCasts_S1x3072x1024_S3072x1024 : S1x3072x1024.ShapeCasts S3072x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x3072_S3072x1024_S256x1024_1_0_0_1_n_n_wf : DotDims.WF S256x3072 S3072x1024 S256x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3072.size a ≤ S32x1024x3072.size a
  hwx0_0 : ∀ i : grid0.Coords, EltTy.bits .f32 = 32 ∨ (Rect.block (s := S32x1024x3072) S1x256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3072x1024.size a ≤ S32x3072x1024.size a
  hwx0_1 : ∀ i : grid0.Coords, EltTy.bits .f32 = 32 ∨ (Rect.block (s := S32x3072x1024) S1x3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .f32 = 32 ∨ (Rect.block (s := S32x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x1024x256.size a
  hwx0_3 : ∀ i : grid0.Coords, EltTy.bits .f32 = 32 ∨ (Rect.block (s := S32x1024x256) S1x256x256.size (cc0_transform_3 i) (hinb0_3 i)).WholeWords (EltTy.packing .f32)

variable [Facts₀]

def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S1x256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3072x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S32x1024x1024 : Shape := ⟨3, ![32, 1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32x1024x3072, .f32⟩
  | .hbm, ⟨1, _⟩ => ⟨S32x3072x1024, .f32⟩
  | .hbm, ⟨2, _⟩ => ⟨S32x1024x256, .f32⟩
  | .hbm, ⟨3, _⟩ => ⟨S32x1024x1024, .f32⟩
  | .hbm, ⟨4, _⟩ => ⟨S_, .f32⟩
  | .hbm, ⟨5, _⟩ => ⟨S32x1024x1024, .f32⟩
  | .hbm, ⟨6, _⟩ => ⟨S32x1024x1024, .f32⟩
  | .hbm, ⟨7, _⟩ => ⟨S32x1024x256, .f32⟩
  | .hbm, ⟨8, _⟩ => ⟨S_, .f32⟩
  | .hbm, ⟨9, _⟩ => ⟨S32x1024x256, .f32⟩
  | .hbm, ⟨10, _⟩ => ⟨S32x1024x256, .f32⟩
  | _, _ => ⟨S32x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_call1_cst : Ref sig .tc := ⟨.hbm, 8, rfl⟩
abbrev main_call1_v0 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S32x1024x256 : S_.BroadcastsInDim S32x1024x256 (![] : Fin 0 → Fin S32x1024x256.rank)
  dot_S32x1024x3072_S32x3072x1024_S32x1024x1024_2_1_1_2_0_0_wf : DotDims.WF S32x1024x3072 S32x3072x1024 S32x1024x1024 [2] [1] [1] [2] [0] [0]
  dot_S32x1024x1024_S32x1024x256_S32x1024x256_2_1_1_2_0_0_wf : DotDims.WF S32x1024x1024 S32x1024x256 S32x1024x256 [2] [1] [1] [2] [0] [0]

variable [Facts₀]

def dot_S32x1024x3072_S32x3072x1024_S32x1024x1024_2_1_1_2_0_0 : DotDims S32x1024x3072 S32x3072x1024 S32x1024x1024 where
  lhsContracting := [2]
  rhsContracting := [1]
  lhsNonContracting := [1]
  rhsNonContracting := [2]
  lhsBatch := [0]
  rhsBatch := [0]
  wf := dot_S32x1024x3072_S32x3072x1024_S32x1024x1024_2_1_1_2_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.MlpSpec.lean ====
/-
  The two-layer expert network as one function of the three argument arrays.

  For expert e, token n and hidden unit h the first layer takes the row-by-column product of token n's input row
  with column h of the expert's first weight matrix and keeps its positive part:
      hidden(e, n, h) = max(Σ_d x(e, n, d) · w1(e, d, h), 0).
  The second layer does the same with the hidden row and the expert's second weight matrix:
      out(e, n, o) = max(Σ_h hidden(e, n, h) · w2(e, h, o), 0).
  Everything is read on the extended reals, where a change of float format is the identity and a sum has no order,
  so this one function is what both programs compute.
-/
import Idealize.ShloMosaic.PureOps.Ideal
import Idealize.ShloMosaic.Lib.ValueIdx

noncomputable section

namespace Cert.ExpertMlp

open Idealize.ShloMosaic Idealize.ShloMosaic.ValueIdx

/-- The first layer at (e, n, h): the positive part of token n's input row times column h of expert e's first weights. -/
def hidden (x : (⟨3, ![32, 1024, 3072]⟩ : Shape).Idx → EReal) (w1 : (⟨3, ![32, 3072, 1024]⟩ : Shape).Idx → EReal)
    (e : Fin 32) (n : Fin 1024) (h : Fin 1024) : EReal :=
  max (∑ d : Fin 3072, x (ix3 e n d) * w1 (ix3 e d h)) 0

/-- The network's output array: at (e, n, o) the positive part of the hidden row times column o of expert e's second
    weights. -/
def mlp (x : (⟨3, ![32, 1024, 3072]⟩ : Shape).Idx → EReal) (w1 : (⟨3, ![32, 3072, 1024]⟩ : Shape).Idx → EReal)
    (w2 : (⟨3, ![32, 1024, 256]⟩ : Shape).Idx → EReal) : (⟨3, ![32, 1024, 256]⟩ : Shape).Idx → EReal :=
  fun i => max (∑ h : Fin 1024, hidden x w1 (i 0) (i 1) h * w2 (ix3 (i 0) h (i 2))) 0

/-- The output at an index written by its coordinates. -/
theorem mlp_apply (x : (⟨3, ![32, 1024, 3072]⟩ : Shape).Idx → EReal) (w1 : (⟨3, ![32, 3072, 1024]⟩ : Shape).Idx → EReal)
    (w2 : (⟨3, ![32, 1024, 256]⟩ : Shape).Idx → EReal) (e : Fin 32) (n : Fin 1024) (o : Fin 256) :
    mlp x w1 w2 (ix3 e n o)
      = max (∑ h : Fin 1024, max (∑ d : Fin 3072, x (ix3 e n d) * w1 (ix3 e d h)) 0 * w2 (ix3 e h o)) 0 := rfl

end Cert.ExpertMlp

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.MlpBody.lean ====
/-
  What the kernel body stores, read at an index.

  At a grid point the body holds three blocks, each with a leading axis of extent one: 256 input rows of 3072
  entries, the expert's 3072×1024 first weights and its 1024×256 second weights. It drops the unit axis, takes the
  product of the rows with the first weights into a zero accumulator, keeps the positive part, takes the product of
  that with the second weights into a zero accumulator, keeps the positive part again and puts the unit axis back.
  On the extended reals the changes of float format in between are the identity, so the stored block holds at
  (0, p, q)
      max(Σ_h max(Σ_d rows(0, p, d) · first(0, d, h), 0) · second(0, h, q), 0).
-/
import proofs.«143508_j28097676051039_1_alg».proof.Proof.Gen.KernelIdeal.Skeleton
import proofs.«143508_j28097676051039_1_alg».proof.Proof.LibDenseLayer
import Idealize.ShloMosaic.Lib.ValueLayout
import Idealize.ShloMosaic.Lib.ValueIdx
import Idealize.ShloMosaic.PureOps.Ideal.Laws

noncomputable section

namespace Cert.ExpertMlp.Body

open Cert.KernelIdeal Cert.KernelIdeal.Gen Idealize.ShloMosaic Idealize.ShloMosaic.ValueIdx

/-- The first product at (p, h): row p of the input block against column h of the first weights. -/
theorem first_product (x0 : Vec Ideal S1x256x3072 .f32) (x1 : Vec Ideal S1x3072x1024 .f32) (p : Fin 256) (h : Fin 1024) :
    matmul dot_S256x3072_S3072x1024_S256x1024_1_0_0_1_n_n none
        (truncf .bf16 (shapeCast S256x3072 x0 Facts₀.shapeCasts_S1x256x3072_S256x3072) Facts₀.bitsLt_bf16_f32)
        (truncf .bf16 (shapeCast S3072x1024 x1 Facts₀.shapeCasts_S1x3072x1024_S3072x1024) Facts₀.bitsLt_bf16_f32)
        (constant (F := Ideal) S256x1024 .f32 0x00000000#32) (ix2 p h)
      = ∑ d : Fin 3072, x0 (ix3 (0 : Fin 1) p d) * x1 (ix3 (0 : Fin 1) d h) := by
  show FloatOps.matmul (⟨[1], [0], [0], [1], [], [], Facts₀.dot_S256x3072_S3072x1024_S256x1024_1_0_0_1_n_n_wf⟩ : DotDims _ _ _) none _ _
      (constant ⟨2, ![256, 1024]⟩ .f32 0x00000000#32) (ix2 p h) = _
  rw [DenseLayer.matmul_rows_apply]
  refine Finset.sum_congr rfl fun d _ => ?_
  rw [truncf_apply, truncf_apply, shapeCast_1ab_ab_apply, shapeCast_1ab_ab_apply]

/-- The second product at (p, q): row p of any 256×1024 hidden block against column q of the second weights. -/
theorem second_product (H : FVec Ideal S256x1024 .f32) (x2 : Vec Ideal S1x1024x256 .f32) (p q : Fin 256) :
    matmul dot_S256x1024_S1024x256_S256x256_1_0_0_1_n_n none
        (truncf .bf16 H Facts₀.bitsLt_bf16_f32)
        (truncf .bf16 (shapeCast S1024x256 x2 Facts₀.shapeCasts_S1x1024x256_S1024x256) Facts₀.bitsLt_bf16_f32)
        (constant (F := Ideal) S256x256 .f32 0x00000000#32) (ix2 p q)
      = ∑ h : Fin 1024, H (ix2 p h) * x2 (ix3 (0 : Fin 1) h q) := by
  show FloatOps.matmul (⟨[1], [0], [0], [1], [], [], Facts₀.dot_S256x1024_S1024x256_S256x256_1_0_0_1_n_n_wf⟩ : DotDims _ _ _) none _ _
      (constant ⟨2, ![256, 256]⟩ .f32 0x00000000#32) (ix2 p q) = _
  rw [DenseLayer.matmul_rows_apply]
  refine Finset.sum_congr rfl fun h _ => ?_
  rw [truncf_apply, truncf_apply, shapeCast_1ab_ab_apply]

/-- The zero the body splats before each positive part is the extended real zero. -/
theorem splat_zero : (Scalar.ofBits (F := Ideal) .f32 0x00000000#32 : Ideal .f32) = (0 : EReal) := Ideal.ofBits_zero_f32

/-- THE STORED BLOCK at (u, p, q): both layers of the network on the three blocks the body loaded. -/
theorem stored_apply (x0 : Vec Ideal S1x256x3072 .f32) (x1 : Vec Ideal S1x3072x1024 .f32) (x2 : Vec Ideal S1x1024x256 .f32)
    (u : Fin 1) (p q : Fin 256) :
    k0_pay1 (F := Ideal) x0 x1 x2 (ix3 u p q)
      = max (∑ h : Fin 1024, max (∑ d : Fin 3072, x0 (ix3 (0 : Fin 1) p d) * x1 (ix3 (0 : Fin 1) d h)) 0
          * x2 (ix3 (0 : Fin 1) h q)) 0 := by
  unfold k0_pay1
  rw [shapeCast_ab_1ab_apply, maximumf_apply, broadcast_apply, second_product, splat_zero]
  refine congrArg (max · 0) (Finset.sum_congr rfl fun h _ => ?_)
  rw [maximumf_apply, broadcast_apply, first_product]

end Cert.ExpertMlp.Body

end
-- ==== Proof.MlpArray.lean ====
/-
  From the blocks to the whole output array.

  The grid has 32 × 4 points. At the point for expert e and row tile n the kernel reads rows 256n … 256n + 255 of
  expert e's input, all of expert e's first and second weights, and writes rows 256n … 256n + 255 of expert e's
  output. What the body stores there is the network evaluated on exactly those rows, so the block written back at a
  point is the network's output array read through that point's block. Every index (e, r, o) of the output lies in
  the block of the point for expert e and tile r / 256, so after the run the whole array is the network's output.
-/
import proofs.«143508_j28097676051039_1_alg».proof.Proof.Gen.KernelIdeal.Value
import proofs.«143508_j28097676051039_1_alg».proof.Proof.MlpSpec
import proofs.«143508_j28097676051039_1_alg».proof.Proof.MlpBody
import Idealize.ShloMosaic.Lib.Pipeline.Value

noncomputable section

namespace Cert.ExpertMlp.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body loads and stores at offset zero on every axis. -/
theorem zero_offsets : (![0, 0, 0] : Fin 3 → Nat) = fun _ => 0 := funext fun a => by fin_cases a <;> rfl

/-- The block indices over the grid: the input rows move with the output block on the expert and row-tile axes, both
    weight blocks move with it on the expert axis only, every other block index is zero, and the output's expert and
    row-tile indices stay below 32 and 4. -/
theorem block_indices : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) ≤ 31 ∧ win0_3.index t (1 : Fin 3) ≤ 3 :=
  (by decide +kernel : ∀ t : Fin grid0.N, _)

/-- Every expert and row tile is some point's output block. -/
theorem block_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- The input block at a point, read at (u, p, d), is the input array at the point's expert, row 256·tile + p,
    entry d. -/
theorem rows_read (c : Dev nD) (t : Fin cfg0.N) (u : Fin 1) (p : Fin 256) (d : Fin 3072) (e : Fin 32) (n : Fin 1024)
    (he : e.val = win0_3.index t (0 : Fin 3)) (hn : n.val = win0_3.index t (1 : Fin 3) * 256 + p.val) :
    iblk m c 0 t (ix3 u p d) = V m c main_arg0 (ix3 e n d) := by
  obtain ⟨a0, a1, a2, -⟩ := block_indices t
  show V m c main_arg0 (((cfg0.win 0).blk t).view.emb (ix3 u p d)) = _
  refine congrArg (V m c main_arg0) (funext fun a => Fin.ext ?_)
  have hu : u.val = 0 := by omega
  match a with
  | ⟨0, _⟩ => show win0_0.index t (0 : Fin 3) * 1 + 1 * u.val = e.val; omega
  | ⟨1, _⟩ => show win0_0.index t (1 : Fin 3) * 256 + 1 * p.val = n.val; omega
  | ⟨2, _⟩ => show win0_0.index t (2 : Fin 3) * 3072 + 1 * d.val = d.val; omega

/-- The first-weights block at a point, read at (u, d, h), is the first weights of the point's expert at (d, h). -/
theorem first_read (c : Dev nD) (t : Fin cfg0.N) (u : Fin 1) (d : Fin 3072) (h : Fin 1024) (e : Fin 32)
    (he : e.val = win0_3.index t (0 : Fin 3)) :
    iblk m c 1 t (ix3 u d h) = V m c main_arg1 (ix3 e d h) := by
  obtain ⟨-, -, -, b0, b1, b2, -⟩ := block_indices t
  show V m c main_arg1 (((cfg0.win 1).blk t).view.emb (ix3 u d h)) = _
  refine congrArg (V m c main_arg1) (funext fun a => Fin.ext ?_)
  have hu : u.val = 0 := by omega
  match a with
  | ⟨0, _⟩ => show win0_1.index t (0 : Fin 3) * 1 + 1 * u.val = e.val; omega
  | ⟨1, _⟩ => show win0_1.index t (1 : Fin 3) * 3072 + 1 * d.val = d.val; omega
  | ⟨2, _⟩ => show win0_1.index t (2 : Fin 3) * 1024 + 1 * h.val = h.val; omega

/-- The second-weights block at a point, read at (u, h, q), is the second weights of the point's expert at (h, q). -/
theorem second_read (c : Dev nD) (t : Fin cfg0.N) (u : Fin 1) (h : Fin 1024) (q : Fin 256) (e : Fin 32) (o : Fin 256)
    (he : e.val = win0_3.index t (0 : Fin 3)) (ho : o.val = q.val) :
    iblk m c 2 t (ix3 u h q) = V m c main_arg2 (ix3 e h o) := by
  obtain ⟨-, -, -, -, -, -, c0, c1, c2, -⟩ := block_indices t
  show V m c main_arg2 (((cfg0.win 2).blk t).view.emb (ix3 u h q)) = _
  refine congrArg (V m c main_arg2) (funext fun a => Fin.ext ?_)
  have hu : u.val = 0 := by omega
  match a with
  | ⟨0, _⟩ => show win0_2.index t (0 : Fin 3) * 1 + 1 * u.val = e.val; omega
  | ⟨1, _⟩ => show win0_2.index t (1 : Fin 3) * 1024 + 1 * h.val = h.val; omega
  | ⟨2, _⟩ => show win0_2.index t (2 : Fin 3) * 256 + 1 * q.val = o.val; omega

/-- WHAT A POINT WRITES BACK is its block of the network's output array over the arrays as the region finds them. -/
theorem flushed_eq (c : Dev nD) (t : Fin cfg0.N) :
    (dats m 0 c).flushed 3 t
      = ((cfg0.win 3).blk t).view.read (Elt Ideal) (mlp (V m c main_arg0) (V m c main_arg1) (V m c main_arg2)) := by
  rw [Cert.KernelIdeal.Value.flushed3]
  unfold out0_3
  rw [View.canon_unit_zero zero_offsets]
  simp only [View.ld_unit_zero (S := S1x256x3072) zero_offsets, View.ld_unit_zero (S := S1x3072x1024) zero_offsets,
    View.ld_unit_zero (S := S1x1024x256) zero_offsets]
  obtain ⟨-, -, -, -, -, -, -, -, -, d2, -, -⟩ := block_indices t
  funext j
  obtain ⟨u, p, q, rfl⟩ : ∃ (u : Fin 1) (p q : Fin 256), j = ix3 u p q := ⟨j 0, j 1, j 2, eq_ix3 j⟩
  have hu : u.val = 0 := by omega
  have he : ((((cfg0.win 3).blk t).view.emb (ix3 u p q)) 0).val = win0_3.index t (0 : Fin 3) := by
    show win0_3.index t (0 : Fin 3) * 1 + 1 * u.val = _; omega
  have hn : ((((cfg0.win 3).blk t).view.emb (ix3 u p q)) 1).val = win0_3.index t (1 : Fin 3) * 256 + p.val := by
    show win0_3.index t (1 : Fin 3) * 256 + 1 * p.val = _; omega
  have ho : ((((cfg0.win 3).blk t).view.emb (ix3 u p q)) 2).val = q.val := by
    show win0_3.index t (2 : Fin 3) * 256 + 1 * q.val = _; omega
  show k0_pay1 (iblk m c 0 t) (iblk m c 1 t) (iblk m c 2 t) (ix3 u p q)
      = mlp (V m c main_arg0) (V m c main_arg1) (V m c main_arg2) (((cfg0.win 3).blk t).view.emb (ix3 u p q))
  refine (Body.stored_apply (iblk m c 0 t) (iblk m c 1 t) (iblk m c 2 t) u p q).trans ?_
  refine congrArg (max · 0) (Finset.sum_congr rfl fun h _ => ?_)
  refine congrArg₂ (· * ·) (congrArg (max · 0) (Finset.sum_congr rfl fun d _ => ?_)) ?_
  · exact congrArg₂ (· * ·) (rows_read m c t 0 p d _ _ he hn) (first_read m c t 0 d h _ he)
  · exact second_read m c t 0 h q _ _ he ho

/-- An index of the output array is in a point's block iff each coordinate is in the block's range on its axis. -/
theorem mem_block (t : Fin cfg0.N) (i : S32x1024x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v0).slice (win0_3.rect t)).set ↔ _
  rw [View.set_slice_whole, Rect.mem_set_unit]
  exact Iff.rfl

/-- Every index (e, r, o) of the output array is in the block of the point for expert e and row tile r / 256. -/
theorem covered (i : S32x1024x256.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 256 := (i 2).isLt
  obtain ⟨t, ht⟩ := block_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- THE OUTPUT ARRAY after the run is the network's output over the argument arrays as launched. -/
theorem final (c : Dev nD) :
    (dats m 0 c).arrAt 3 cfg0.N
      = mlp (m ((c : Thread nD τ).loc main_arg0)) (m ((c : Thread nD τ).loc main_arg1)) (m ((c : Thread nD τ).loc main_arg2)) :=
  (dats m 0 c).arrAt_eq_of_cover 3 (mlp (V m c main_arg0) (V m c main_arg1) (V m c main_arg2))
    (fun t _ => flushed_eq m c t) covered

/-- The kernel's run: every weakly fair execution terminates with the output array at the network's output and the
    arguments unchanged. -/
theorem run : θ_run defs (onTc (τ := τ) (main (F := Ideal))) ⟨m, fun _ => 0, ρ⟩ fun r => ∀ c : Dev nD,
      r.2.mem ((c : Thread nD τ).loc main_v0)
        = mlp (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.ExpertMlp.Array

end
-- ==== Proof.MlpHost.lean ====
/-
  The reference computes the network.

  The reference is two batched products over the expert axis, each followed by a maximum with a zero array. Read at
  (e, n, o), the second product sums over the hidden coordinate h the first stage at (e, n, h) times the second weights
  at (e, h, o); the first stage at (e, n, h) is the positive part of the sum over d of the input at (e, n, d) times
  the first weights at (e, d, h). That is the specification, entry by entry.
-/
import proofs.«143508_j28097676051039_1_alg».proof.Proof.Gen.ReferenceIdeal.Read
import proofs.«143508_j28097676051039_1_alg».proof.Proof.MlpSpec
import Idealize.ShloMosaic.PureOps.Ideal.Laws

noncomputable section

namespace Cert.ExpertMlp.Host

open Cert.ReferenceIdeal Cert.ReferenceIdeal.Read Idealize.ShloMosaic Idealize.ShloMosaic.ValueIdx

/-- Where the second product reads its right operand: expert i₀, hidden coordinate k, output column i₂. -/
theorem second_right (i : S32x1024x256.Idx) (k : Fin 1024) : ridx_main_v2 i k = ix3 (i 0) k (i 2) :=
  funext fun a => Fin.ext (by match a with | ⟨0, _⟩ => rfl | ⟨1, _⟩ => rfl | ⟨2, _⟩ => rfl)

/-- Where the first product, read at the second product's left index, reads its left operand: the input at
    (i₀, i₁, d). -/
theorem first_left (i : S32x1024x256.Idx) (k : Fin 1024) (d : Fin 3072) :
    lidx_main_v0 (lidx_main_v2 i k) d = ix3 (i 0) (i 1) d :=
  funext fun a => Fin.ext (by match a with | ⟨0, _⟩ => rfl | ⟨1, _⟩ => rfl | ⟨2, _⟩ => rfl)

/-- and its right operand: the first weights at (i₀, d, k). -/
theorem first_right (i : S32x1024x256.Idx) (k : Fin 1024) (d : Fin 3072) :
    ridx_main_v0 (lidx_main_v2 i k) d = ix3 (i 0) d k :=
  funext fun a => Fin.ext (by match a with | ⟨0, _⟩ => rfl | ⟨1, _⟩ => rfl | ⟨2, _⟩ => rfl)

/-- THE REFERENCE'S RESULT is the network's output array. -/
theorem reference_eq (x : (⟨S32x1024x3072, .f32⟩ : BufTy).Contents (Elt Ideal)) (w1 : (⟨S32x3072x1024, .f32⟩ : BufTy).Contents (Elt Ideal))
    (w2 : (⟨S32x1024x256, .f32⟩ : BufTy).Contents (Elt Ideal)) :
    val_main_v3 (F := Ideal) x w1 w2 = Cert.ExpertMlp.mlp x w1 w2 := by
  funext i
  rw [val_main_v3_apply, val_main_v2_apply, val_main_call1_v0_apply, val_main_call1_cst_apply]
  simp only [val_main_v1_apply, val_main_v0_apply, val_main_call0_v0_apply, val_main_call0_cst_apply,
    second_right, first_left, first_right]
  show max (∑ k : Fin 1024, max (∑ d : Fin 3072, x (ix3 (i 0) (i 1) d) * w1 (ix3 (i 0) d k)) (Ideal.ofBits .f32 0x00000000#32)
      * w2 (ix3 (i 0) k (i 2))) (Ideal.ofBits .f32 0x00000000#32) = _
  rw [Ideal.ofBits_zero_f32]
  rfl

end Cert.ExpertMlp.Host

end
-- ==== Proof.lean ====
/-
  A per-expert two-layer network with positive parts, against its plain reference.

  For 32 experts, 1024 tokens each: the first layer multiplies a token's 3072 inputs by the expert's 3072×1024
  weights and keeps the positive part; the second multiplies the 1024 hidden values by the expert's 1024×256 weights
  and keeps the positive part again.

  The kernel walks a 32 × 4 grid, one expert and one tile of 256 tokens per point; it narrows each block's float
  format before both products and accumulates each product from zero. The reference takes the two products batched
  over the expert axis, each followed by a maximum with zero. On the extended reals a change of float format is the
  identity, a product into a zero accumulator is the plain sum over the contracted coordinate, and a sum has no order,
  so both programs end with the same function of the three argument arrays at every index (e, n, o):
      max(Σ_h max(Σ_d x(e, n, d) · w1(e, d, h), 0) · w2(e, h, o), 0).
  No law used needs the inputs to be finite. The idealized kernel is the kernel's own text read on the extended reals,
  so nothing is owed for the idealization.
-/
import proofs.«143508_j28097676051039_1_alg».proof.Defs
import proofs.«143508_j28097676051039_1_alg».proof.Proof.Gen.Kernel
import proofs.«143508_j28097676051039_1_alg».proof.Proof.Gen.Kernel.Skeleton
import proofs.«143508_j28097676051039_1_alg».proof.Proof.Gen.Kernel.Launch
import proofs.«143508_j28097676051039_1_alg».proof.Proof.Gen.Kernel.Points
import proofs.«143508_j28097676051039_1_alg».proof.Proof.Gen.Kernel.Frame
import proofs.«143508_j28097676051039_1_alg».proof.Proof.Gen.KernelIdeal
import proofs.«143508_j28097676051039_1_alg».proof.Proof.Gen.KernelIdeal.Skeleton
import proofs.«143508_j28097676051039_1_alg».proof.Proof.Gen.KernelIdeal.Launch
import proofs.«143508_j28097676051039_1_alg».proof.Proof.Gen.KernelIdeal.Points
import proofs.«143508_j28097676051039_1_alg».proof.Proof.Gen.KernelIdeal.Frame
import proofs.«143508_j28097676051039_1_alg».proof.Proof.Gen.ReferenceIdeal
import proofs.«143508_j28097676051039_1_alg».proof.Proof.Gen.Pre_finite_inputs
import proofs.«143508_j28097676051039_1_alg».proof.Proof.Gen.KernelIdeal.Value
import proofs.«143508_j28097676051039_1_alg».proof.Proof.Gen.ReferenceIdeal.Run
import proofs.«143508_j28097676051039_1_alg».proof.Proof.Gen.ReferenceIdeal.Read
import proofs.«143508_j28097676051039_1_alg».proof.Proof.MlpSpec
import proofs.«143508_j28097676051039_1_alg».proof.Proof.MlpArray
import proofs.«143508_j28097676051039_1_alg».proof.Proof.MlpHost
import Idealize.ShloMosaic.Adequacy
import Idealize.ShloMosaic.Init

noncomputable section

namespace Cert.Proof

open Idealize.ShloMosaic Idealize.ShloMosaic.TcCoe Idealize.SL.Sem

/-- The kernel as printed terminates without a fault and leaves its three argument arrays as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network's output array: the kernel
    block by block over its grid, the reference as its two batched products with their positive parts. -/
theorem algebraic : Cert.algebraic_KernelIdeal_ReferenceIdeal := by
  intro m ρ m' ρ' _ hagree
  refine ⟨fun c => Cert.ExpertMlp.mlp (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.ExpertMlp.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ExpertMlp.Host.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
